-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x64 : S_.BroadcastsInDim S4096x64 (![] : Fin 0 → Fin S4096x64.rank)
  reducesTo_S4096x64_S_d0_1 : S4096x64.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S4096x64 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S2x2048x4096 .f32) (main_arg1 : FVec F S1024x1024 .f32) (main_arg2 : FVec F S4096x64 .f32) (main_arg3 : FVec F S64x1024 .f32) (main_arg4 : FVec F S4096x64 .f32) (main_arg5 : FVec F S64x1024 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S4096x4096 : Shape := ⟨2, ![4096, 4096]⟩
abbrev S4096x1024 : Shape := ⟨2, ![4096, 1024]⟩
abbrev S1024x4096 : Shape := ⟨2, ![1024, 4096]⟩
abbrev S128x4096 : Shape := ⟨2, ![128, 4096]⟩
abbrev S128x1024 : Shape := ⟨2, ![128, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S1024x1024, .f32⟩
  | .hbm, ⟨2, _⟩ => ⟨S4096x64, .f32⟩
  | .hbm, ⟨3, _⟩ => ⟨S64x1024, .f32⟩
  | .hbm, ⟨4, _⟩ => ⟨S4096x64, .f32⟩
  | .hbm, ⟨5, _⟩ => ⟨S64x1024, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x4096, .f32⟩
  | .hbm, ⟨11, _⟩ => ⟨S4096x1024, .bf16⟩
  | .hbm, ⟨12, _⟩ => ⟨S1024x1024, .bf16⟩
  | .hbm, ⟨13, _⟩ => ⟨S1024x4096, .bf16⟩
  | .hbm, ⟨14, _⟩ => ⟨S4096x4096, .f32⟩
  | .hbm, ⟨15, _⟩ => ⟨S2x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x1024, .bf16⟩
  | .local _ .vmem, ⟨3, _⟩ => ⟨S1024x1024, .bf16⟩
  | .local _ .vmem, ⟨4, _⟩ => ⟨S1024x4096, .bf16⟩
  | .local _ .vmem, ⟨5, _⟩ => ⟨S128x4096, .f32⟩
  | .local _ .vmem, ⟨6, _⟩ => ⟨S128x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x2048x4096_S4096x4096 : S2x2048x4096.ShapeCasts S4096x4096
  transposes_S1024x1024_S1024x1024_1_0 : S1024x1024.Transposes [1, 0] S1024x1024
  transposes_S4096x1024_S1024x4096_1_0 : S4096x1024.Transposes [1, 0] S1024x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S4096x4096_S2x2048x4096 : S4096x4096.ShapeCasts S2x2048x4096
  dot_S4096x64_S64x1024_S4096x1024_1_0_0_1_n_n_wf : DotDims.WF S4096x64 S64x1024 S4096x1024 [1] [0] [0] [1] [] []
  dot_S128x4096_S4096x1024_S128x1024_1_0_0_1_n_n_wf : DotDims.WF S128x4096 S4096x1024 S128x1024 [1] [0] [0] [1] [] []
  dot_S128x1024_S1024x1024_S128x1024_1_0_0_1_n_n_wf : DotDims.WF S128x1024 S1024x1024 S128x1024 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)

variable [Facts₀]

def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1024x1024, .f32⟩
  | .hbm, ⟨2, _⟩ => ⟨S4096x64, .f32⟩
  | .hbm, ⟨3, _⟩ => ⟨S64x1024, .f32⟩
  | .hbm, ⟨4, _⟩ => ⟨S4096x64, .f32⟩
  | .hbm, ⟨5, _⟩ => ⟨S64x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S4096x4096, .f32⟩
  | .hbm, ⟨11, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S4096x1024_S1024x4096_1_0 : S4096x1024.Transposes [1, 0] S1024x4096
  dot_S4096x64_S64x1024_S4096x1024_1_0_0_1_n_n_wf : DotDims.WF S4096x64 S64x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S2x2048x4096_S4096x4096_S2x2048x4096_2_1_01_0_n_n_wf : DotDims.WF S2x2048x4096 S4096x4096 S2x2048x4096 [2] [1] [0, 1] [0] [] []

variable [Facts₀]

def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.LibChain.lean ====
/-
  The algebra behind a chain of three matrix products.

  Over the reals a product of matrices may be bracketed at will, and the transpose of a product is the product of the
  transposes in reverse order; hence  ((X P) Wᵀ) Qᵀ = X ((Q W) Pᵀ)ᵀ .  Read entry by entry, with X one row x:

      ∑ j, (∑ k, (∑ a, x a · P a k) · W j k) · Q o j  =  ∑ a, x a · ∑ k, (∑ j, Q o j · W j k) · P a k .

  On the extended reals multiplication does not distribute over addition at the infinities, so there the identity is
  stated for entries that are real numbers. A finite sum of products of real entries is again a real number, which is
  what lets the low-rank factors P = A B be formed first.
-/
import Mathlib.Data.Matrix.Mul
import Mathlib.Data.EReal.Basic

namespace Cert.Chain

/-- An extended real that is a real number. -/
def IsReal (x : EReal) : Prop := ∃ r : ℝ, x = (r : EReal)

/-- A finite sum of real numbers, formed on the extended reals, is the real sum. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- A finite sum of products of real numbers is a real number. -/
theorem isReal_sum_mul {ι : Type*} [Fintype ι] (f g : ι → EReal) (hf : ∀ i, IsReal (f i)) (hg : ∀ i, IsReal (g i)) :
    IsReal (∑ i, f i * g i) := by
  choose fr hfr using hf
  choose gr hgr using hg
  refine ⟨∑ i, fr i * gr i, ?_⟩
  rw [← coe_sum]
  exact Finset.sum_congr rfl fun i _ => by rw [hfr, hgr, EReal.coe_mul]

/-- The chain identity over the reals, one row of X and one column of the result: associativity of the matrix
    product and the transpose of a product, read at an entry. -/
theorem chain_real {I K J O : Type*} [Fintype I] [Fintype K] [Fintype J]
    (x : I → ℝ) (p : I → K → ℝ) (w : J → K → ℝ) (q : O → J → ℝ) (o : O) :
    ∑ j, (∑ k, (∑ a, x a * p a k) * w j k) * q o j = ∑ a, x a * ∑ k, (∑ j, q o j * w j k) * p a k := by
  have h : (Matrix.of fun (_ : Unit) a => x a) * Matrix.of p * (Matrix.of w).transpose * (Matrix.of q).transpose
      = (Matrix.of fun (_ : Unit) a => x a) * (Matrix.of q * Matrix.of w * (Matrix.of p).transpose).transpose := by
    simp only [Matrix.transpose_mul, Matrix.transpose_transpose, Matrix.mul_assoc]
  have h' := congrFun (congrFun h ()) o
  simpa only [Matrix.mul_apply, Matrix.transpose_apply, Matrix.of_apply] using h'

/-- The chain identity on the extended reals, for real entries. -/
theorem chain_ereal {I K J O : Type*} [Fintype I] [Fintype K] [Fintype J]
    (x : I → EReal) (p : I → K → EReal) (w : J → K → EReal) (q : O → J → EReal)
    (hx : ∀ a, IsReal (x a)) (hp : ∀ a k, IsReal (p a k)) (hw : ∀ j k, IsReal (w j k)) (hq : ∀ o j, IsReal (q o j)) (o : O) :
    ∑ j, (∑ k, (∑ a, x a * p a k) * w j k) * q o j = ∑ a, x a * ∑ k, (∑ j, q o j * w j k) * p a k := by
  choose xr hxr using hx
  choose pr hpr using hp
  choose wr hwr using hw
  choose qr hqr using hq
  simp only [hxr, hpr, hwr, hqr, ← EReal.coe_mul, coe_sum]
  exact congrArg _ (chain_real xr pr wr qr o)

end Cert.Chain
-- ==== Proof.Finite.lean ====
/-
  The precondition, read back: every entry of every argument is a real number.

  The predicate is the conjunction, over the six arguments, of "every entry's absolute value is below +∞". On the
  extended reals |x| = max x (−x) is below +∞ exactly when x is neither infinity, that is, when x is a real number.
-/
import proofs.«111391_j27384711479892_1_alg».proof.Proof.Gen.Pre_finite_inputs
import proofs.«111391_j27384711479892_1_alg».proof.Proof.LibChain
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs Cert.Pre_finite_inputs.Gen Cert.Chain

/-- The f32 pattern of +∞ denotes +∞. -/
theorem ofBits_inf : Ideal.ofBits .f32 0x7F800000#32 = (⊤ : EReal) := by
  simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

instance : Subsingleton S_.Idx := ⟨fun a b => funext fun d => d.elim0⟩

/-- One conjunct of the predicate: a `jnp.all` of entrywise comparisons that came out true. -/
theorem all_real {s : Shape} {axes : List (Fin s.rank)} (x : FVec Ideal s .f32) (hb : S_.BroadcastsInDim s (![] : Fin 0 → Fin s.rank))
    (hred : s.ReducesTo axes S_) (hu : 0 < S_.numel)
    (e : Host.reduce IntOp.andi (cmpf .olt (Host.absf x) (broadcastInDim s ![] hb (constant (F := Ideal) S_ .f32 0x7F800000#32)))
      (constantI S_ 1 1#1) hred hu ix0 = 1#1) (i : s.Idx) : IsReal (x i) :=
  isReal_of_abs_lt (x i) (Host.reduce_andi_all _ _ hred hu ix0 e i)

/-- The precondition says every entry of each of the six arguments is a real number. -/
theorem real_of_pre (x0 : FVec Ideal S2x2048x4096 .f32) (x1 : FVec Ideal S1024x1024 .f32) (x2 : FVec Ideal S4096x64 .f32)
    (x3 : FVec Ideal S64x1024 .f32) (x4 : FVec Ideal S4096x64 .f32) (x5 : FVec Ideal S64x1024 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have h0 := congrFun h ix0
  dsimp only [fn, fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3, all_real x4 _ _ _ e4,
    all_real x5 _ _ _ e5⟩

end Cert.Pre_finite_inputs.Finite

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Payload.lean ====
/-
  What the kernel body computes at one grid point, entry by entry.

  The body loads a [128, 4096] block of x and the three resident weight matrices, and chains three matrix
  products, each into a zero accumulator:  y1 = xblk · P_in  ([128,1024]),  y2 = y1 · W_smallᵀ  ([128,1024]),
  out = y2 · P_outᵀ  ([128,4096]).  At the ideal values the changes of float format between the products are
  the identity and each product is the exact sum over its contraction index, so

      out (p, o) = ∑ j, (∑ k, (∑ a, xblk (p, a) · P_in (a, k)) · W_smallᵀ (k, j)) · P_outᵀ (j, o).
-/
import proofs.«111391_j27384711479892_1_alg».proof.Proof.Gen.KernelIdeal.Skeleton
import proofs.«111391_j27384711479892_1_alg».proof.Proof.LibPlainDot
import Idealize.ShloMosaic.Lib.Pipeline.Value

noncomputable section

namespace Cert.KernelIdeal.Payload

open Idealize.ShloMosaic Idealize.ShloMosaic.ValueIdx Cert.KernelIdeal Cert.KernelIdeal.Gen Cert.PlainDot

/-- The three products of the body, and the host's low-rank product, are plain matrix products. -/
theorem plain_x_pin : Plain dot_S128x4096_S4096x1024_S128x1024_1_0_0_1_n_n := ⟨rfl, rfl, rfl, rfl, rfl, rfl⟩
theorem plain_y1_wt : Plain dot_S128x1024_S1024x1024_S128x1024_1_0_0_1_n_n := ⟨rfl, rfl, rfl, rfl, rfl, rfl⟩
theorem plain_y2_pout : Plain dot_S128x1024_S1024x4096_S128x4096_1_0_0_1_n_n := ⟨rfl, rfl, rfl, rfl, rfl, rfl⟩
theorem plain_lowrank : Plain dot_S4096x64_S64x1024_S4096x1024_1_0_0_1_n_n := ⟨rfl, rfl, rfl, rfl, rfl, rfl⟩

/-- The body's stored value at entry (p, o) of the block. -/
theorem pay_apply (x0 : Vec Ideal S128x4096 .f32) (x1 : Vec Ideal S4096x1024 .bf16) (x2 : Vec Ideal S1024x1024 .bf16)
    (x3 : Vec Ideal S1024x4096 .bf16) (p : Fin 128) (o : Fin 4096) :
    k0_pay1 x0 x1 x2 x3 (ix2 p o)
      = ∑ j : Fin 1024, (∑ k : Fin 1024, (∑ a : Fin 4096, x0 (ix2 p a) * x1 (ix2 a k)) * x2 (ix2 k j)) * x3 (ix2 j o) := by
  unfold k0_pay1
  simp only [shapeCast_self]
  rw [matmul_zero_apply plain_y2_pout rfl rfl]
  refine Finset.sum_congr rfl fun j _ => ?_
  rw [truncf_apply, matmul_zero_apply plain_y1_wt rfl rfl]
  refine congrArg (· * x3 (ix2 j o)) (Finset.sum_congr rfl fun k _ => ?_)
  rw [truncf_apply, matmul_zero_apply plain_x_pin rfl rfl]
  refine congrArg (· * x2 (ix2 k j)) (Finset.sum_congr rfl fun a _ => ?_)
  rw [truncf_apply]

end Cert.KernelIdeal.Payload

end
-- ==== Proof.Stages.lean ====
/-
  The four arrays the kernel region is launched on, as functions of the program's arguments, entry by entry.

  Before the region the host reshapes x from [2, 2048, 4096] to [4096, 4096] (row 2048·b + s is token (b, s)), forms the
  low-rank products P_in = A_in · B_in and P_out = A_out · B_out ([4096, 1024] each), transposes W_small and P_out, and
  changes the three weight arrays' float format (the identity at the ideal values). After the region it reshapes the
  [4096, 4096] result back to [2, 2048, 4096].
-/
import proofs.«111391_j27384711479892_1_alg».proof.Proof.Payload

noncomputable section

namespace Cert.KernelIdeal.Stages

open Idealize.ShloMosaic Idealize.ShloMosaic.ValueIdx Cert.KernelIdeal Cert.KernelIdeal.Gen Cert.PlainDot
open Cert.KernelIdeal.Payload

/-- x with its two leading axes merged. -/
def tokens (x : S2x2048x4096.Idx → EReal) : S4096x4096.Idx → EReal :=
  shapeCast S4096x4096 x shapeCasts_S2x2048x4096_S4096x4096

/-- P_in = A_in · B_in, as the kernel's second operand. -/
def pIn (ai : S4096x64.Idx → EReal) (bi : S64x1024.Idx → EReal) : S4096x1024.Idx → EReal :=
  truncf (F := Ideal) (φ := .f32) .bf16 (Host.dotGeneral (F := Ideal) (φ₁ := .f32) (φ₂ := .f32) dot_S4096x64_S64x1024_S4096x1024_1_0_0_1_n_n (some .fp32) ai bi) bitsLt_bf16_f32

/-- W_smallᵀ, as the kernel's third operand. -/
def wT (w : S1024x1024.Idx → EReal) : S1024x1024.Idx → EReal :=
  truncf (F := Ideal) (φ := .f32) .bf16 (transpose S1024x1024 [1, 0] w transposes_S1024x1024_S1024x1024_1_0) bitsLt_bf16_f32

/-- P_outᵀ = (A_out · B_out)ᵀ, as the kernel's fourth operand. -/
def pOutT (ao : S4096x64.Idx → EReal) (bo : S64x1024.Idx → EReal) : S1024x4096.Idx → EReal :=
  truncf (F := Ideal) (φ := .f32) .bf16 (transpose S1024x4096 [1, 0]
    (Host.dotGeneral (F := Ideal) (φ₁ := .f32) (φ₂ := .f32) dot_S4096x64_S64x1024_S4096x1024_1_0_0_1_n_n (some .fp32) ao bo)
    transposes_S4096x1024_S1024x4096_1_0) bitsLt_bf16_f32

/-- The result with its leading axis split back. -/
def untokens (y : S4096x4096.Idx → EReal) : S2x2048x4096.Idx → EReal :=
  shapeCast S2x2048x4096 y shapeCasts_S4096x4096_S2x2048x4096

/-- Row 2048·b + s of the merged array is token (b, s). -/
theorem tokens_apply (x : S2x2048x4096.Idx → EReal) (b : Fin 2) (s : Fin 2048) (a : Fin 4096) (r : Fin 4096)
    (hr : r.val = b.val * 2048 + s.val) : tokens x (ix2 r a) = x (ix3 b s a) :=
  shapeCast_apply x _ _ _ (by
    rw [Shape.rowMajor_val_three, Shape.rowMajor_val_two]
    show (b.val * 2048 + s.val) * 4096 + a.val = r.val * 4096 + a.val
    rw [hr])

theorem untokens_apply (y : S4096x4096.Idx → EReal) (b : Fin 2) (s : Fin 2048) (a : Fin 4096) (r : Fin 4096)
    (hr : r.val = b.val * 2048 + s.val) : untokens y (ix3 b s a) = y (ix2 r a) :=
  shapeCast_apply y _ _ _ (by
    rw [Shape.rowMajor_val_three, Shape.rowMajor_val_two]
    show r.val * 4096 + a.val = (b.val * 2048 + s.val) * 4096 + a.val
    rw [hr])

theorem pIn_apply (ai : S4096x64.Idx → EReal) (bi : S64x1024.Idx → EReal) (a : Fin 4096) (k : Fin 1024) :
    pIn ai bi (ix2 a k) = ∑ ρ : Fin 64, ai (ix2 a ρ) * bi (ix2 ρ k) := by
  unfold pIn
  rw [truncf_apply]
  exact dotGeneral_apply (φ₁ := .f32) (φ₂ := .f32) plain_lowrank rfl rfl (some .fp32) ai bi a k

theorem wT_apply (w : S1024x1024.Idx → EReal) (k j : Fin 1024) : wT w (ix2 k j) = w (ix2 j k) := by
  unfold wT
  rw [truncf_apply]
  exact transpose_apply [1, 0] w transposes_S1024x1024_S1024x1024_1_0 (ix2 k j) (ix2 j k) (fun b => match b with
    | ⟨0, _⟩ => rfl
    | ⟨1, _⟩ => rfl)

theorem pOutT_apply (ao : S4096x64.Idx → EReal) (bo : S64x1024.Idx → EReal) (j : Fin 1024) (o : Fin 4096) :
    pOutT ao bo (ix2 j o) = ∑ ρ : Fin 64, ao (ix2 o ρ) * bo (ix2 ρ j) := by
  unfold pOutT
  rw [truncf_apply, transpose_apply [1, 0] _ transposes_S4096x1024_S1024x4096_1_0 (ix2 j o) (ix2 o j) (fun b => match b with
    | ⟨0, _⟩ => rfl
    | ⟨1, _⟩ => rfl)]
  exact dotGeneral_apply (φ₁ := .f32) (φ₂ := .f32) plain_lowrank rfl rfl (some .fp32) ao bo o j

end Cert.KernelIdeal.Stages

end
-- ==== Proof.RunValue.lean ====
/-
  What the idealized kernel program leaves in its result, as one function of its arguments.

  The region runs the body at 32 grid points; point t reads rows 128·t … 128·t + 127 of the [4096, 4096] token array and
  the three resident weight arrays whole, and writes back rows 128·t … 128·t + 127 of the [4096, 4096] result. What it
  writes back is the restriction to those rows of ONE function of the four launched arrays,

      chain X P W Q (r, o) = ∑ j, (∑ k, (∑ a, X (r, a) · P (a, k)) · W (k, j)) · Q (j, o),

  because row r of the result depends on row r of X only. The 32 row blocks tile the array, so after the run the
  result array holds that function; the host line after the region splits its leading axis back into (batch, position).
-/
import proofs.«111391_j27384711479892_1_alg».proof.Proof.Gen.KernelIdeal.Frame
import proofs.«111391_j27384711479892_1_alg».proof.Proof.Stages
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.Stages Cert.KernelIdeal.Payload
open Idealize.ShloMosaic.Pipeline (Dat)

variable (m : (ℓ : Loc nD τ sig) → Buf (Elt Ideal) ℓ) (ρ : Dev nD → PrngReg)

/-- The chain of three products on whole arrays, entry by entry. -/
def chain (X : S4096x4096.Idx → EReal) (P : S4096x1024.Idx → EReal) (W : S1024x1024.Idx → EReal)
    (Q : S1024x4096.Idx → EReal) : S4096x4096.Idx → EReal :=
  fun i => ∑ j : Fin 1024, (∑ k : Fin 1024, (∑ a : Fin 4096, X (ix2 (i 0) a) * P (ix2 a k)) * W (ix2 k j)) * Q (ix2 j (i 1))

/-- The body's stored value at a block entry is the chain at the array entry in the same column whose row of X
    is the block's row. -/
theorem pay_eq_chain (x0 : Vec Ideal S128x4096 .f32) (x1 : Vec Ideal S4096x1024 .bf16) (x2 : Vec Ideal S1024x1024 .bf16)
    (x3 : Vec Ideal S1024x4096 .bf16) (X : S4096x4096.Idx → EReal) (p : Fin 128) (q : Fin 4096) (i : S4096x4096.Idx)
    (hrow : ∀ a : Fin 4096, x0 (ix2 p a) = X (ix2 (i 0) a)) (hcol : q = i 1) :
    k0_pay1 x0 x1 x2 x3 (ix2 p q) = chain X x1 x2 x3 i := by
  rw [pay_apply]
  simp only [hrow, hcol]
  rfl

theorem hz : (![0, 0] : Fin 2 → Nat) = fun _ => 0 := funext fun a => by fin_cases a <;> rfl

/-- The printed index maps, decided over the grid: the token window and the result window are at row block t,
    column block 0; the three weight windows stay at block (0, 0). -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val :=
  (by decide +kernel : ∀ t : Fin grid0.N, _)

/-- A resident weight window's block is its whole array. -/
theorem blk_pin (c : Dev nD) (t : Fin cfg0.N) : (iblk m c 1 t : S4096x1024.Idx → EReal) = V m c main_v5 := by
  obtain ⟨e0, e1, e2, e3, e4, e5, e6, e7, e8, e9⟩ := idx_facts t
  funext z
  show V m c main_v5 (((cfg0.win 1).blk t).view.emb z) = V m c main_v5 z
  refine congrArg _ (funext fun a => Fin.ext ?_)
  match a with
  | ⟨0, _⟩ => show win0_1.index t (0 : Fin 2) * 4096 + 1 * (z 0).val = (z 0).val; omega
  | ⟨1, _⟩ => show win0_1.index t (1 : Fin 2) * 1024 + 1 * (z 1).val = (z 1).val; omega
theorem blk_wt (c : Dev nD) (t : Fin cfg0.N) : (iblk m c 2 t : S1024x1024.Idx → EReal) = V m c main_v6 := by
  obtain ⟨e0, e1, e2, e3, e4, e5, e6, e7, e8, e9⟩ := idx_facts t
  funext z
  show V m c main_v6 (((cfg0.win 2).blk t).view.emb z) = V m c main_v6 z
  refine congrArg _ (funext fun a => Fin.ext ?_)
  match a with
  | ⟨0, _⟩ => show win0_2.index t (0 : Fin 2) * 1024 + 1 * (z 0).val = (z 0).val; omega
  | ⟨1, _⟩ => show win0_2.index t (1 : Fin 2) * 1024 + 1 * (z 1).val = (z 1).val; omega
theorem blk_poutT (c : Dev nD) (t : Fin cfg0.N) : (iblk m c 3 t : S1024x4096.Idx → EReal) = V m c main_v7 := by
  obtain ⟨e0, e1, e2, e3, e4, e5, e6, e7, e8, e9⟩ := idx_facts t
  funext z
  show V m c main_v7 (((cfg0.win 3).blk t).view.emb z) = V m c main_v7 z
  refine congrArg _ (funext fun a => Fin.ext ?_)
  match a with
  | ⟨0, _⟩ => show win0_3.index t (0 : Fin 2) * 1024 + 1 * (z 0).val = (z 0).val; omega
  | ⟨1, _⟩ => show win0_3.index t (1 : Fin 2) * 4096 + 1 * (z 1).val = (z 1).val; omega

/-- WHAT POINT t WRITES BACK is block t of the chain of the four launched arrays. -/
theorem flushed_eq (c : Dev nD) (t : Fin cfg0.N) :
    (dats m 0 c).flushed 4 t = ((cfg0.win 4).blk t).view.read (Elt Ideal)
      (chain (V m c main_v0) (V m c main_v5) (V m c main_v6) (V m c main_v7)) := by
  show (cfg0.win 4).cut (grid0.coords t) ((dats m 0 c).after 4 t) = _
  rw [after0_4]
  unfold out0_4
  rw [View.canon_unit_zero hz]
  simp only [View.ld_unit_zero (S := S128x4096) hz, View.ld_unit_zero (S := S4096x1024) hz,
    View.ld_unit_zero (S := S1024x1024) hz, View.ld_unit_zero (S := S1024x4096) hz]
  rw [blk_pin, blk_wt, blk_poutT]
  obtain ⟨e0, e1, e2, e3, e4, e5, e6, e7, e8, e9⟩ := idx_facts t
  funext y
  show k0_pay1 (iblk m c 0 t) (V m c main_v5) (V m c main_v6) (V m c main_v7) y
    = chain (V m c main_v0) (V m c main_v5) (V m c main_v6) (V m c main_v7) (((cfg0.win 4).blk t).view.emb y)
  refine (congrArg (k0_pay1 (iblk m c 0 t) (V m c main_v5) (V m c main_v6) (V m c main_v7)) (eq_ix2 (n0 := 128) (n1 := 4096) y)).trans
    (pay_eq_chain (iblk m c 0 t) (V m c main_v5) (V m c main_v6) (V m c main_v7) (V m c main_v0) (y 0) (y 1)
      (((cfg0.win 4).blk t).view.emb y) (fun a => ?_) (Fin.ext ?_))
  · show V m c main_v0 (((cfg0.win 0).blk t).view.emb (ix2 (y 0) a))
      = V m c main_v0 (ix2 ((((cfg0.win 4).blk t).view.emb y) 0) a)
    refine congrArg _ (funext fun x => Fin.ext ?_)
    match x with
    | ⟨0, _⟩ => show win0_0.index t (0 : Fin 2) * 128 + 1 * (y 0).val = win0_4.index t (0 : Fin 2) * 128 + 1 * (y 0).val; omega
    | ⟨1, _⟩ => show win0_0.index t (1 : Fin 2) * 4096 + 1 * a.val = a.val; omega
  · show (y 1).val = win0_4.index t (1 : Fin 2) * 4096 + 1 * (y 1).val; omega

/-- An entry of the result array is in point t's block iff its row is one of the block's 128 rows. -/
theorem mem_blk (t : Fin cfg0.N) (i : S4096x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v8).slice (win0_4.rect t)).set ↔ _
  rw [View.set_slice_whole, Rect.mem_set_unit]
  exact Iff.rfl

/-- Row r lies in the block of point r / 128: the 32 row blocks tile the array. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ : ∃ t : Fin cfg0.N, t.val = (i 0).val / 128 :=
    ⟨⟨(i 0).val / 128, by show _ < grid0.N; rw [N_0]; omega⟩, rfl⟩
  obtain ⟨e0, e1, e2, e3, e4, e5, e6, e7, e8, e9⟩ := idx_facts t
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- THE RESULT ARRAY of the region after the run. -/
theorem final (c : Dev nD) :
    (dats m 0 c).arrAt 4 cfg0.N = chain (V m c main_v0) (V m c main_v5) (V m c main_v6) (V m c main_v7) :=
  (dats m 0 c).arrAt_eq_of_cover 4 _ (fun t _ => flushed_eq m c t) cover

/-! ## The launched arrays are the host's stages of the arguments -/

theorem V_tokens (c : Dev nD) : (V m c main_v0 : S4096x4096.Idx → EReal) = tokens (m ((c : Thread nD τ).loc main_arg0)) := by
  show StableHlo.after hostOps0 (fun b => m (c, b)) (Proc.devRef .tc main_v0) = _
  after_results
  try rfl
theorem V_pIn (c : Dev nD) : (V m c main_v5 : S4096x1024.Idx → EReal)
    = pIn (m ((c : Thread nD τ).loc main_arg4)) (m ((c : Thread nD τ).loc main_arg5)) := by
  show StableHlo.after hostOps0 (fun b => m (c, b)) (Proc.devRef .tc main_v5) = _
  after_results
  try rfl
theorem V_wT (c : Dev nD) : (V m c main_v6 : S1024x1024.Idx → EReal) = wT (m ((c : Thread nD τ).loc main_arg1)) := by
  show StableHlo.after hostOps0 (fun b => m (c, b)) (Proc.devRef .tc main_v6) = _
  after_results
  try rfl
theorem V_pOutT (c : Dev nD) : (V m c main_v7 : S1024x4096.Idx → EReal)
    = pOutT (m ((c : Thread nD τ).loc main_arg2)) (m ((c : Thread nD τ).loc main_arg3)) := by
  show StableHlo.after hostOps0 (fun b => m (c, b)) (Proc.devRef .tc main_v7) = _
  after_results
  try rfl

/-- The program's result, as a function of its six arguments. -/
def result (x : S2x2048x4096.Idx → EReal) (w : S1024x1024.Idx → EReal) (ao : S4096x64.Idx → EReal) (bo : S64x1024.Idx → EReal)
    (ai : S4096x64.Idx → EReal) (bi : S64x1024.Idx → EReal) : S2x2048x4096.Idx → EReal :=
  untokens (chain (tokens x) (pIn ai bi) (wT w) (pOutT ao bo))

/-- The host line after the region reads the region's result array. -/
theorem tail_eq (c : Dev nD) :
    Pipeline.afterTail₀ cfgs (dats m) 0 (V0 m) [hostOps1] c main_v9
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v9) = _
  after_results
  have e : Pipeline.withArrays spec0 c (V0 m c) (fun w => (dats m 0 c).arrAt w cfg0.N) (Proc.devRef .tc main_v8)
      = chain (V m c main_v0) (V m c main_v5) (V m c main_v6) (V m c main_v7) :=
    (Pipeline.withArrays_arr spec0 launch0.win.arr_inj c _ _ 4).trans (final m c)
  show untokens (Pipeline.withArrays spec0 c (V0 m c) (fun w => (dats m 0 c).arrAt w cfg0.N) (Proc.devRef .tc main_v8)) = _
  rw [e, V_tokens, V_pIn, V_wT, V_pOutT]
  rfl

/-! ## The run, read -/

/-- Every weakly fair execution of the idealized kernel program terminates with its result at `result` of the
    arguments, and the arguments unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.RefValue.lean ====
/-
  The reference's result, entry by entry.

  The reference forms P_out = A_out · B_out and P_in = A_in · B_in, the large weight
  W_large = (P_out · W_small) · P_inᵀ  ([4096, 4096]), and contracts x with it over the input feature:

      out (b, s, o) = ∑ a, x (b, s, a) · W_large (o, a),
      W_large (o, a) = ∑ k, (∑ j, P_out (o, j) · W_small (j, k)) · P_in (a, k).

  Each stage read at an entry is the generated reading of the reference's run; here the composed index maps are named
  by coordinates and the stages chained.
-/
import proofs.«111391_j27384711479892_1_alg».proof.Proof.Gen.ReferenceIdeal.Read

noncomputable section

namespace Cert.ReferenceIdeal.RefValue

open Idealize.ShloMosaic Idealize.ShloMosaic.ValueIdx Cert.ReferenceIdeal Cert.ReferenceIdeal.Read

theorem lidx0 (o : Fin 4096) (j : Fin 1024) (ρ : Fin 64) : lidx_main_v0 (ix2 o j) ρ = ix2 o ρ :=
  funext fun a => match a with | ⟨0, _⟩ => rfl | ⟨1, _⟩ => rfl
theorem ridx0 (o : Fin 4096) (j : Fin 1024) (ρ : Fin 64) : ridx_main_v0 (ix2 o j) ρ = ix2 ρ j :=
  funext fun a => match a with | ⟨0, _⟩ => rfl | ⟨1, _⟩ => rfl
theorem lidx1 (a : Fin 4096) (k : Fin 1024) (ρ : Fin 64) : lidx_main_v1 (ix2 a k) ρ = ix2 a ρ :=
  funext fun x => match x with | ⟨0, _⟩ => rfl | ⟨1, _⟩ => rfl
theorem ridx1 (a : Fin 4096) (k : Fin 1024) (ρ : Fin 64) : ridx_main_v1 (ix2 a k) ρ = ix2 ρ k :=
  funext fun x => match x with | ⟨0, _⟩ => rfl | ⟨1, _⟩ => rfl
theorem lidx2 (o : Fin 4096) (k j : Fin 1024) : lidx_main_v2 (ix2 o k) j = ix2 o j :=
  funext fun x => match x with | ⟨0, _⟩ => rfl | ⟨1, _⟩ => rfl
theorem ridx2 (o : Fin 4096) (k j : Fin 1024) : ridx_main_v2 (ix2 o k) j = ix2 j k :=
  funext fun x => match x with | ⟨0, _⟩ => rfl | ⟨1, _⟩ => rfl
theorem idx3 (k : Fin 1024) (a : Fin 4096) : idx_main_v3 (ix2 k a) = ix2 a k :=
  funext fun x => match x with | ⟨0, _⟩ => rfl | ⟨1, _⟩ => rfl
theorem lidx4 (o a : Fin 4096) (k : Fin 1024) : lidx_main_v4 (ix2 o a) k = ix2 o k :=
  funext fun x => match x with | ⟨0, _⟩ => rfl | ⟨1, _⟩ => rfl
theorem ridx4 (o a : Fin 4096) (k : Fin 1024) : ridx_main_v4 (ix2 o a) k = ix2 k a :=
  funext fun x => match x with | ⟨0, _⟩ => rfl | ⟨1, _⟩ => rfl
theorem lidx5 (b : Fin 2) (s : Fin 2048) (o a : Fin 4096) : lidx_main_v5 (ix3 b s o) a = ix3 b s a :=
  funext fun x => match x with | ⟨0, _⟩ => rfl | ⟨1, _⟩ => rfl | ⟨2, _⟩ => rfl
theorem ridx5 (b : Fin 2) (s : Fin 2048) (o a : Fin 4096) : ridx_main_v5 (ix3 b s o) a = ix2 o a :=
  funext fun x => match x with | ⟨0, _⟩ => rfl | ⟨1, _⟩ => rfl

/-- The reference's result at (b, s, o), as nested sums over the arguments' entries. -/
theorem ref_apply (x0 : S2x2048x4096.Idx → EReal) (x1 : S1024x1024.Idx → EReal) (x2 : S4096x64.Idx → EReal) (x3 : S64x1024.Idx → EReal)
    (x4 : S4096x64.Idx → EReal) (x5 : S64x1024.Idx → EReal) (b : Fin 2) (s : Fin 2048) (o : Fin 4096) :
    val_main_v5 (F := Ideal) x0 x1 x2 x3 x4 x5 (ix3 b s o)
      = ∑ a : Fin 4096, x0 (ix3 b s a) * ∑ k : Fin 1024,
          (∑ j : Fin 1024, (∑ ρ : Fin 64, x2 (ix2 o ρ) * x3 (ix2 ρ j)) * x1 (ix2 j k)) * (∑ ρ : Fin 64, x4 (ix2 a ρ) * x5 (ix2 ρ k)) := by
  rw [val_main_v5_apply]
  refine Finset.sum_congr rfl fun a _ => ?_
  rw [lidx5, ridx5, val_main_v4_apply]
  refine congrArg (x0 (ix3 b s a) * ·) (Finset.sum_congr rfl fun k _ => ?_)
  rw [lidx4, ridx4, val_main_v2_apply, val_main_v3_apply, idx3, val_main_v1_apply]
  refine congrArg₂ (· * ·) (Finset.sum_congr rfl fun j _ => ?_) (Finset.sum_congr rfl fun ρ _ => ?_)
  · rw [lidx2, ridx2, val_main_v0_apply]
    refine congrArg (· * x1 (ix2 j k)) (Finset.sum_congr rfl fun ρ _ => ?_)
    rw [lidx0, ridx0]
  · rw [lidx1, ridx1]

end Cert.ReferenceIdeal.RefValue

end
-- ==== Proof.Bridge.lean ====
/-
  The two programs compute one function of arguments whose entries are real numbers.

  At token (b, s) and output feature o the kernel program's result is

      ∑ j, (∑ k, (∑ a, x (b, s, a) · P_in (a, k)) · W_small (j, k)) · P_out (o, j)

  and the reference's is

      ∑ a, x (b, s, a) · ∑ k, (∑ j, P_out (o, j) · W_small (j, k)) · P_in (a, k),

  with the same P_in (a, k) = ∑ ρ, A_in (a, ρ) · B_in (ρ, k) and P_out (o, j) = ∑ ρ, A_out (o, ρ) · B_out (ρ, j) on both sides.
  These are the two bracketings of  x · P_in · W_smallᵀ · P_outᵀ ; they agree when every entry is a real number
  (the chain identity), the low-rank products of real entries being real.
-/
import proofs.«111391_j27384711479892_1_alg».proof.Proof.RunValue
import proofs.«111391_j27384711479892_1_alg».proof.Proof.RefValue
import proofs.«111391_j27384711479892_1_alg».proof.Proof.LibChain

noncomputable section

namespace Cert.Bridge

open Idealize.ShloMosaic Idealize.ShloMosaic.ValueIdx Cert.Chain
open Cert.KernelIdeal Cert.KernelIdeal.Stages Cert.KernelIdeal.RunValue

theorem result_eq_ref (x0 : S2x2048x4096.Idx → EReal) (x1 : S1024x1024.Idx → EReal) (x2 : S4096x64.Idx → EReal)
    (x3 : S64x1024.Idx → EReal) (x4 : S4096x64.Idx → EReal) (x5 : S64x1024.Idx → EReal)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    result x0 x1 x2 x3 x4 x5 = Cert.ReferenceIdeal.Read.val_main_v5 (F := Ideal) x0 x1 x2 x3 x4 x5 := by
  funext i
  obtain ⟨b, s, o, rfl⟩ : ∃ (b : Fin 2) (s : Fin 2048) (o : Fin 4096), i = ix3 b s o := ⟨i 0, i 1, i 2, eq_ix3 i⟩
  rw [Cert.ReferenceIdeal.RefValue.ref_apply]
  obtain ⟨r, hr⟩ : ∃ r : Fin 4096, r.val = b.val * 2048 + s.val :=
    ⟨⟨b.val * 2048 + s.val, by have := b.isLt; have := s.isLt; omega⟩, rfl⟩
  unfold result
  rw [untokens_apply _ b s o r hr]
  show ∑ j : Fin 1024, (∑ k : Fin 1024, (∑ a : Fin 4096, tokens x0 (ix2 r a) * pIn x4 x5 (ix2 a k)) * wT x1 (ix2 k j))
      * pOutT x2 x3 (ix2 j o) = _
  simp only [tokens_apply x0 b s _ r hr, pIn_apply, wT_apply, pOutT_apply]
  exact chain_ereal (fun a => x0 (ix3 b s a)) (fun a k => ∑ ρ : Fin 64, x4 (ix2 a ρ) * x5 (ix2 ρ k))
    (fun j k => x1 (ix2 j k)) (fun o j => ∑ ρ : Fin 64, x2 (ix2 o ρ) * x3 (ix2 ρ j))
    (fun a => h0 _) (fun a k => isReal_sum_mul _ _ (fun ρ => h4 _) (fun ρ => h5 _)) (fun j k => h1 _)
    (fun o j => isReal_sum_mul _ _ (fun ρ => h2 _) (fun ρ => h3 _)) o

end Cert.Bridge

end
-- ==== Proof.lean ====
/-
  The certificate: a chain of three matrix products against the materialised large weight.

  The kernel computes, for each token row x,  ((x · P_in) · W_smallᵀ) · P_outᵀ  with P_in = A_in · B_in and
  P_out = A_out · B_out formed by the host; the reference materialises W_large = (P_out · W_small) · P_inᵀ and
  computes  x · W_largeᵀ.  Over the reals these are two bracketings of one product of four matrices. At the ideal
  values every change of float format is the identity and every matrix product is the exact sum over its
  contraction index, but sums and products of extended reals re-associate only away from the infinities; the
  precondition (every entry finite) makes every entry a real number, and there the two sides agree
  (Proof/LibChain.lean for the identity, Proof/Bridge.lean for the two programs' results).

  The three frames are the generated ones (the reference's is its generated run with the result dropped); the ideal
  pass rewrote nothing, so the idealization claim is trivial; the value claim pairs the kernel program's run, read
  through the region's 32 row blocks and the reshape after it (Proof/RunValue.lean), with the reference's generated
  run read entry by entry (Proof/RefValue.lean).
-/
import proofs.«111391_j27384711479892_1_alg».proof.Defs
import proofs.«111391_j27384711479892_1_alg».proof.Proof.Gen.Kernel
import proofs.«111391_j27384711479892_1_alg».proof.Proof.Gen.Kernel.Skeleton
import proofs.«111391_j27384711479892_1_alg».proof.Proof.Gen.Kernel.Launch
import proofs.«111391_j27384711479892_1_alg».proof.Proof.Gen.Kernel.Points
import proofs.«111391_j27384711479892_1_alg».proof.Proof.Gen.Kernel.Frame
import proofs.«111391_j27384711479892_1_alg».proof.Proof.Gen.KernelIdeal
import proofs.«111391_j27384711479892_1_alg».proof.Proof.Gen.KernelIdeal.Skeleton
import proofs.«111391_j27384711479892_1_alg».proof.Proof.Gen.KernelIdeal.Launch
import proofs.«111391_j27384711479892_1_alg».proof.Proof.Gen.KernelIdeal.Points
import proofs.«111391_j27384711479892_1_alg».proof.Proof.Gen.KernelIdeal.Frame
import proofs.«111391_j27384711479892_1_alg».proof.Proof.Gen.ReferenceIdeal
import proofs.«111391_j27384711479892_1_alg».proof.Proof.Gen.Pre_finite_inputs
import proofs.«111391_j27384711479892_1_alg».proof.Proof.Gen.ReferenceIdeal.Run
import proofs.«111391_j27384711479892_1_alg».proof.Proof.Gen.ReferenceIdeal.Read
import proofs.«111391_j27384711479892_1_alg».proof.Proof.Finite
import proofs.«111391_j27384711479892_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run to the kernel program's function of the arguments: the kernel by its run read back, the
    reference because on real entries its own function is the same one. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨r0, r1, r2, r3, r4, r5⟩ := Cert.Pre_finite_inputs.Finite.real_of_pre _ _ _ _ _ _ (hpre c)
  rw [a0, a1, a2, a3, a4, a5, Cert.ReferenceIdeal.Read.val_main_v5_eq]
  exact (Cert.Bridge.result_eq_ref _ _ _ _ _ _ r0 r1 r2 r3 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
